-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S_ : Shape := ⟨0, ![]⟩

class Facts : Prop where
  bcast_S_S100000x65 : S_.BroadcastsInDim S100000x65 (![] : Fin 0 → Fin S100000x65.rank)
  reducesTo_S100000x65_S_d0_1 : S100000x65.ReducesTo [0, 1] S_
  h_S_ : 0 < S_.numel
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x65 .f32) (main_arg1 : IVec S2x1600000 32) (main_arg2 : FVec F S65x64 .f32) (main_arg3 : FVec F S64 .f32) (main_arg4 : FVec F S64x64 .f32) (main_arg5 : FVec F S64 .f32) : IVec S_ 1 :=
  let main_v0 : FVec F S100000x65 .f32 := Host.absf main_arg0
  let main_cst : FVec F S_ .f32 := constant S_ .f32 0x7F800000#32
  let main_v1 : FVec F S100000x65 .f32 := broadcastInDim S100000x65 ![] bcast_S_S100000x65 main_cst
  let main_v2 : IVec S100000x65 1 := cmpf .olt main_v0 main_v1
  let main_c : IVec S_ 1 := constantI S_ 1 1#1
  let main_v3 : IVec S_ 1 := (fun x v => Host.reduce IntOp.andi x v reducesTo_S100000x65_S_d0_1 h_S_) main_v2 main_c
  let main_v4 : FVec F S65x64 .f32 := Host.absf main_arg2
  let main_cst_0 : FVec F S_ .f32 := constant S_ .f32 0x7F800000#32
  let main_v5 : FVec F S65x64 .f32 := broadcastInDim S65x64 ![] bcast_S_S65x64 main_cst_0
  let main_v6 : IVec S65x64 1 := cmpf .olt main_v4 main_v5
  let main_c_1 : IVec S_ 1 := constantI S_ 1 1#1
  let main_v7 : IVec S_ 1 := (fun x v => Host.reduce IntOp.andi x v reducesTo_S65x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x65 : Shape := ⟨2, ![1600000, 65]⟩
abbrev S1x64 : Shape := ⟨2, ![1, 64]⟩
abbrev S100000x64 : Shape := ⟨2, ![100000, 64]⟩
abbrev S5000x65 : Shape := ⟨2, ![5000, 65]⟩
abbrev S5000x64 : Shape := ⟨2, ![5000, 64]⟩

abbrev nBuf : Space → Nat
  | .hbm => 26
  | .vmem => 10
  | .smem => 0
  | _ => 0

abbrev bufTy : (tb : Table) → Fin (tcTables nBuf tb) → BufTy
  | .hbm, ⟨0, _⟩ => ⟨S100000x65, .f32⟩
  | .hbm, ⟨1, _⟩ => ⟨S2x1600000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x65, .f32⟩
  | .hbm, ⟨19, _⟩ => ⟨S_, .f32⟩
  | .hbm, ⟨20, _⟩ => ⟨S100000x65, .f32⟩
  | .hbm, ⟨21, _⟩ => ⟨S1600000x1, .i32⟩
  | .hbm, ⟨22, _⟩ => ⟨S100000x65, .f32⟩
  | .hbm, ⟨23, _⟩ => ⟨S1x64, .f32⟩
  | .hbm, ⟨24, _⟩ => ⟨S1x64, .f32⟩
  | .hbm, ⟨25, _⟩ => ⟨S100000x64, .f32⟩
  | .local _ .vmem, ⟨0, _⟩ => ⟨S5000x65, .f32⟩
  | .local _ .vmem, ⟨1, _⟩ => ⟨S5000x65, .f32⟩
  | .local _ .vmem, ⟨2, _⟩ => ⟨S5000x65, .f32⟩
  | .local _ .vmem, ⟨3, _⟩ => ⟨S5000x65, .f32⟩
  | .local _ .vmem, ⟨4, _⟩ => ⟨S65x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S100000x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  shapeCasts_S64_S1x64 : S64.ShapeCasts S1x64
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  bitsLt_bf16_f32 : FTy.bits .bf16 < FTy.bits .f32
  inb_S65x64_S65x64_0_0 : ∀ a, (![0, 0] : Fin 2 → Nat) a + S65x64.size a ≤ S65x64.size a
  h_S65x64 : 0 < S65x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S5000x65_S65x64_S5000x64_1_0_0_1_n_n_wf : DotDims.WF S5000x65 S65x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x65.size a ≤ S100000x65.size a
  hwx0_0 : ∀ i : grid0.Coords, EltTy.bits .f32 = 32 ∨ (Rect.block (s := S100000x65) S5000x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x65.size a ≤ S100000x65.size a
  hwx0_1 : ∀ i : grid0.Coords, EltTy.bits .f32 = 32 ∨ (Rect.block (s := S100000x65) S5000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x64.size a ≤ S65x64.size a
  hwx0_2 : ∀ i : grid0.Coords, EltTy.bits .f32 = 32 ∨ (Rect.block (s := S65x64) S65x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x65_S65x64_S5000x64_1_0_0_1_n_n : DotDims S5000x65 S65x64 S5000x64 where
  lhsContracting := [1]
  rhsContracting := [0]
  lhsNonContracting := [0]
  rhsNonContracting := [1]
  lhsBatch := []
  rhsBatch := []
  wf := dot_S5000x65_S65x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x65 : Shape := ⟨2, ![1600000, 65]⟩
abbrev S100000x64 : Shape := ⟨2, ![100000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x65, .f32⟩
  | .hbm, ⟨1, _⟩ => ⟨S2x1600000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x65, .f32⟩
  | .hbm, ⟨19, _⟩ => ⟨S_, .f32⟩
  | .hbm, ⟨20, _⟩ => ⟨S100000x65, .f32⟩
  | .hbm, ⟨21, _⟩ => ⟨S1600000x1, .i32⟩
  | .hbm, ⟨22, _⟩ => ⟨S100000x65, .f32⟩
  | .hbm, ⟨23, _⟩ => ⟨S100000x65, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S100000x65_S65x64_S100000x64_1_0_0_1_n_n_wf : DotDims.WF S100000x65 S65x64 S100000x64 [1] [0] [0] [1] [] []
  dot_S100000x64_S64x64_S100000x64_1_0_0_1_n_n_wf : DotDims.WF S100000x64 S64x64 S100000x64 [1] [0] [0] [1] [] []

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.MlpSpec.lean ====
/-
  The function both programs compute, one output element at a time.

  A graph-isomorphism layer with sum aggregation followed by a two-layer perceptron: with `h = x + agg` (each node's
  features plus the sum of its in-neighbours' features), the result is `relu (h · W1 + b1) · W2 + b2`.  Row `r` of the
  result depends on row `r` of `h` only, so the element `(r, j)` is a function `rowMlp` of that one row, the two
  weight matrices and the two bias rows; `G` reads it off whole arrays.  Nothing here needs finiteness: both programs
  compute literally these sums of products on the extended reals, in this nesting.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The extended real the f32 zero word denotes: the floor of the rectifier (never evaluated: both sides carry the same word). -/
abbrev zeroWord : EReal := Ideal.ofBits .f32 0x00000000#32

/-- One row through the perceptron, read at output column `j`: the hidden unit `k` is
    `max (∑ q, h q · W1[q,k] + b1 k) 0`, and the output is `∑ k, hidden k · W2[k,j] + b2 j`. -/
def rowMlp (h : Fin 65 → EReal) (W1 : (⟨2, ![65, 64]⟩ : Shape).Idx → EReal) (b1 : Fin 64 → EReal)
    (W2 : (⟨2, ![64, 64]⟩ : Shape).Idx → EReal) (b2 : Fin 64 → EReal) (j : Fin 64) : EReal :=
  (∑ k : Fin 64, max ((∑ q : Fin 65, h q * W1 (ix2 q k)) + b1 k) zeroWord * W2 (ix2 k j)) + b2 j

/-- The whole result: element `(r, j)` is `rowMlp` of row `r` of `x + agg`. -/
def G (x agg : (⟨2, ![100000, 65]⟩ : Shape).Idx → EReal) (W1 : (⟨2, ![65, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![100000, 64]⟩ : Shape).Idx → EReal := fun i =>
  rowMlp (fun q => x (ix2 (i 0) q) + agg (ix2 (i 0) q)) W1 (fun k => b1 (ix1 k)) W2 (fun k => b2 (ix1 k)) (i 1)

/-- The specification at row `r`, column `j`. -/
theorem G_apply (x agg : (⟨2, ![100000, 65]⟩ : Shape).Idx → EReal) (W1 : (⟨2, ![65, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (r : Fin 100000) (j : Fin 64) :
    G x agg W1 b1 W2 b2 (ix2 r j)
      = rowMlp (fun q => x (ix2 r q) + agg (ix2 r q)) W1 (fun k => b1 (ix1 k)) W2 (fun k => b2 (ix1 k)) j := rfl

/-- `rowMlp` depends on its row and bias rows only through their values. -/
theorem rowMlp_congr {h h' : Fin 65 → EReal} {W1 W1' : (⟨2, ![65, 64]⟩ : Shape).Idx → EReal} {b1 b1' : Fin 64 → EReal}
    {W2 W2' : (⟨2, ![64, 64]⟩ : Shape).Idx → EReal} {b2 b2' : Fin 64 → EReal} {j j' : Fin 64}
    (hh : ∀ q, h q = h' q) (hW1 : W1 = W1') (hb1 : ∀ k, b1 k = b1' k) (hW2 : W2 = W2') (hb2 : ∀ k, b2 k = b2' k) (hj : j = j') :
    rowMlp h W1 b1 W2 b2 j = rowMlp h' W1' b1' W2' b2' j' := by
  subst hW1 hW2 hj
  rw [show h = h' from funext hh, show b1 = b1' from funext hb1, show b2 = b2' from funext hb2]

end Cert.Mlp

end
-- ==== Proof.RefMlp.lean ====
/-
  The reference's result, read one element at a time, is the specification `Cert.Mlp.G` of the node features, the
  aggregated neighbour features (the scatter-add of the gathered rows, kept whole: it is never opened), the two weight
  matrices and the two biases.  Each host stage is read at an index by the generated stage lemmas; what is written
  here is only that the composed index maps are the coordinates `(r, q)`, `(q, k)`, `(r, k)`, `(k, j)` of the
  specification, after which the two sides are the same nest of sums.
-/
import proofs.«162335_j79723182948735_1_alg».proof.Proof.Gen.ReferenceIdeal.Read
import proofs.«162335_j79723182948735_1_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `r`, contraction coordinate `q`, of the first product's left operand. -/
theorem lrow15 (i : S100000x64.Idx) (k : Fin 64) (q : Fin 65) : lidx_main_v15 (lidx_main_v20 i k) q = ix2 (i 0) q :=
  funext fun a => by match a with | ⟨0, _⟩ => rfl | ⟨1, _⟩ => rfl
/-- Contraction coordinate `q`, hidden unit `k`, of the first weight matrix. -/
theorem rcol15 (i : S100000x64.Idx) (k : Fin 64) (q : Fin 65) : ridx_main_v15 (lidx_main_v20 i k) q = ix2 q k :=
  funext fun a => by match a with | ⟨0, _⟩ => rfl | ⟨1, _⟩ => rfl
/-- The first bias, broadcast along the rows, read at hidden unit `k`. -/
theorem bias1 (i : S100000x64.Idx) (k : Fin 64) : idx_main_v16 (idx_main_v17 (lidx_main_v20 i k)) = ix1 k :=
  funext fun a => by match a with | ⟨0, _⟩ => rfl
/-- Hidden unit `k`, output column `j`, of the second weight matrix. -/
theorem rcol20 (i : S100000x64.Idx) (k : Fin 64) : ridx_main_v20 i k = ix2 k (i 1) :=
  funext fun a => by match a with | ⟨0, _⟩ => rfl | ⟨1, _⟩ => rfl
/-- The second bias, broadcast along the rows, read at output column `j`. -/
theorem bias2 (i : S100000x64.Idx) : idx_main_v21 (idx_main_v22 i) = ix1 (i 1) :=
  funext fun a => by match a with | ⟨0, _⟩ => rfl

/-- The reference's last stage is the specification of its arguments and of its own aggregation stage. -/
theorem ref_eq (x0 : (⟨S100000x65, .f32⟩ : BufTy).Contents (Elt Ideal)) (x1 : (⟨S2x1600000, .i32⟩ : BufTy).Contents (Elt Ideal))
    (x2 : (⟨S65x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v23 (F := Ideal) x0 x1 x2 x3 x4 x5 = Cert.Mlp.G x0 (val_main_v13 (F := Ideal) x0 x1) x2 x3 x4 x5 := by
  funext i
  rw [val_main_v23_apply, val_main_v20_apply, val_main_v22_apply, val_main_v21_apply, bias2]
  unfold Cert.Mlp.G Cert.Mlp.rowMlp
  show (∑ k : Fin 64, _) + _ = (∑ k : Fin 64, _) + _
  congr 1
  refine Finset.sum_congr rfl fun k _ => ?_
  rw [val_main_v19_apply, val_main_v18_apply, val_main_v15_apply, val_main_v17_apply, val_main_v16_apply,
    val_main_call0_v0_apply, val_main_call0_cst_apply, bias1, rcol20]
  simp only [lrow15, rcol15, val_main_v14_apply]
  rfl

end Cert.ReferenceIdeal.RefValue

end
-- ==== Proof.KernelPayload.lean ====
/-
  The kernel body's one store, read one element at a time.

  At a grid point the body holds a block of 5000 rows of `x` and of the aggregated features, the two weight matrices
  whole and the two biases as rows `[1, 64]`.  Its stored value at row `p`, column `j` of the block is `rowMlp` of row
  `p` of the sum of the two feature blocks: each of the two matrix products into a zero accumulator is a plain sum over
  the contraction coordinate, the narrowing to sixteen bits is the identity on the extended reals, and a bias row
  broadcast down the block reads its column.
-/
import proofs.«162335_j79723182948735_1_alg».proof.Proof.Gen.KernelIdeal.Skeleton
import proofs.«162335_j79723182948735_1_alg».proof.Proof.MlpSpec
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

variable {F : FTy → Type} [FloatOps F]

/-- The body's stored value as one term of its six loads. -/
theorem pay_eq (x0 x1 : Vec F S5000x65 .f32) (x2 : Vec F S65x64 .f32) (x3 : Vec F S1x64 .f32) (x4 : Vec F S64x64 .f32) (x5 : Vec F S1x64 .f32) :
    k0_pay1 x0 x1 x2 x3 x4 x5
      = addf (matmul dot_S5000x64_S64x64_S5000x64_1_0_0_1_n_n none
          (truncf .bf16 (maximumf (addf (matmul dot_S5000x65_S65x64_S5000x64_1_0_0_1_n_n none
              (truncf .bf16 (addf x0 (shapeCast S5000x65 x1 shapeCasts_S5000x65_S5000x65)) bitsLt_bf16_f32)
              (truncf .bf16 x2 bitsLt_bf16_f32) (constant S5000x64 .f32 0x00000000#32))
            (broadcastTo S5000x64 (shapeCast S1x64 x3 shapeCasts_S1x64_S1x64) broadcasts_S1x64_S5000x64))
            (broadcast S5000x64 (Scalar.ofBits .f32 0x00000000#32))) bitsLt_bf16_f32)
          (truncf .bf16 x4 bitsLt_bf16_f32) (constant S5000x64 .f32 0x00000000#32))
        (broadcastTo S5000x64 (shapeCast S1x64 x5 shapeCasts_S1x64_S1x64) broadcasts_S1x64_S5000x64) := rfl

/-! ## The first product: rows of 65 against the [65, 64] weights -/

theorem lhs1_0 (i : S5000x64.Idx) (q : dot_S5000x65_S65x64_S5000x64_1_0_0_1_n_n.contr.Idx) :
    (dot_S5000x65_S65x64_S5000x64_1_0_0_1_n_n.lhsIdx i q 0).val = (i 0).val := by
  unfold DotDims.lhsIdx
  rw [dif_neg (show ¬(0 : Fin S5000x65.rank) ∈ dot_S5000x65_S65x64_S5000x64_1_0_0_1_n_n.lhsBatch by decide), dif_pos (show (0 : Fin S5000x65.rank) ∈ dot_S5000x65_S65x64_S5000x64_1_0_0_1_n_n.lhsNonContracting by decide)]
  rfl
theorem lhs1_1 (i : S5000x64.Idx) (q : dot_S5000x65_S65x64_S5000x64_1_0_0_1_n_n.contr.Idx) :
    (dot_S5000x65_S65x64_S5000x64_1_0_0_1_n_n.lhsIdx i q 1).val = (q ⟨0, by decide⟩).val :=
  dot_S5000x65_S65x64_S5000x64_1_0_0_1_n_n.lhsIdx_val_of_single rfl i q
theorem rhs1_0 (i : S5000x64.Idx) (q : dot_S5000x65_S65x64_S5000x64_1_0_0_1_n_n.contr.Idx) :
    (dot_S5000x65_S65x64_S5000x64_1_0_0_1_n_n.rhsIdx i q 0).val = (q ⟨0, by decide⟩).val :=
  dot_S5000x65_S65x64_S5000x64_1_0_0_1_n_n.rhsIdx_val_of_single rfl i q
theorem rhs1_1 (i : S5000x64.Idx) (q : dot_S5000x65_S65x64_S5000x64_1_0_0_1_n_n.contr.Idx) :
    (dot_S5000x65_S65x64_S5000x64_1_0_0_1_n_n.rhsIdx i q 1).val = (i 1).val := by
  unfold DotDims.rhsIdx
  rw [dif_neg (show ¬(1 : Fin S65x64.rank) ∈ dot_S5000x65_S65x64_S5000x64_1_0_0_1_n_n.rhsBatch by decide), dif_pos (show (1 : Fin S65x64.rank) ∈ dot_S5000x65_S65x64_S5000x64_1_0_0_1_n_n.rhsNonContracting by decide)]
  rfl

/-- Into a zero accumulator the first product at `(p, k)` is `∑ q, l[p,q] · r[q,k]`. -/
theorem mm1_apply (l : FVec Ideal S5000x65 .bf16) (r : FVec Ideal S65x64 .bf16) (p : Fin 5000) (k : Fin 64) :
    matmul dot_S5000x65_S65x64_S5000x64_1_0_0_1_n_n none l r (constant S5000x64 .f32 0x00000000#32) (ix2 p k)
      = ∑ q : Fin 65, l (ix2 p q) * r (ix2 q k) := by
  simp only [matmul]
  rw [Ideal.matmul_constant_zero_apply, ← Equiv.sum_comp (ValueIdx.contrEquiv1 dot_S5000x65_S65x64_S5000x64_1_0_0_1_n_n 65 rfl rfl).symm]
  refine Finset.sum_congr rfl fun q _ => ?_
  have hq := ValueIdx.contrEquiv1_symm_val dot_S5000x65_S65x64_S5000x64_1_0_0_1_n_n 65 rfl rfl q
  have el : dot_S5000x65_S65x64_S5000x64_1_0_0_1_n_n.lhsIdx (ix2 p k) ((ValueIdx.contrEquiv1 dot_S5000x65_S65x64_S5000x64_1_0_0_1_n_n 65 rfl rfl).symm q) = ix2 p q := funext fun a => Fin.ext (by
    match a with
    | ⟨0, _⟩ => exact lhs1_0 _ _
    | ⟨1, _⟩ => exact (lhs1_1 _ _).trans hq)
  have er : dot_S5000x65_S65x64_S5000x64_1_0_0_1_n_n.rhsIdx (ix2 p k) ((ValueIdx.contrEquiv1 dot_S5000x65_S65x64_S5000x64_1_0_0_1_n_n 65 rfl rfl).symm q) = ix2 q k := funext fun a => Fin.ext (by
    match a with
    | ⟨0, _⟩ => exact (rhs1_0 _ _).trans hq
    | ⟨1, _⟩ => exact rhs1_1 _ _)
  rw [el, er]

/-! ## The second product: hidden rows of 64 against the [64, 64] weights -/

theorem lhs2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator the second product at `(p, j)` is `∑ k, l[p,k] · r[k,j]`. -/
theorem mm2_apply (l : FVec Ideal S5000x64 .bf16) (r : FVec Ideal S64x64 .bf16) (p : Fin 5000) (j : Fin 64) :
    matmul dot_S5000x64_S64x64_S5000x64_1_0_0_1_n_n none l r (constant S5000x64 .f32 0x00000000#32) (ix2 p j)
      = ∑ k : Fin 64, l (ix2 p k) * r (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhs2_0 _ _).trans hk
    | ⟨1, _⟩ => exact rhs2_1 _ _)
  rw [el, er]

/-! ## A bias row broadcast down the block -/

/-- A `[1, 64]` row cast to itself and broadcast to `[5000, 64]` reads, at `(p, k)`, the row's column `k`. -/
theorem brow_apply {α : Type} (x : S1x64.Idx → α) (p : Fin 5000) (k : Fin 64) :
    broadcastTo S5000x64 (shapeCast S1x64 x shapeCasts_S1x64_S1x64) broadcasts_S1x64_S5000x64 (ix2 p k) = x (ix2 (0 : Fin 1) k) := by
  rw [shapeCast_self]
  exact broadcastTo_apply x broadcasts_S1x64_S5000x64 (ix2 p k) (ix2 (0 : Fin 1) k) (fun a => by
    match a with
    | ⟨0, _⟩ => show (0 : Nat) = if (1 : Nat) = 1 then 0 else _; rw [if_pos rfl]
    | ⟨1, _⟩ => show k.val = if (64 : Nat) = 1 then 0 else k.val; rw [if_neg (by decide)])

/-! ## The stored value at an element -/

/-- Row `p`, column `j` of the stored block: the perceptron of row `p` of the sum of the two feature blocks. -/
theorem pay_apply (x0 x1 : Vec Ideal S5000x65 .f32) (x2 : Vec Ideal S65x64 .f32) (x3 : Vec Ideal S1x64 .f32)
    (x4 : Vec Ideal S64x64 .f32) (x5 : Vec Ideal S1x64 .f32) (p : Fin 5000) (j : Fin 64) :
    k0_pay1 (F := Ideal) x0 x1 x2 x3 x4 x5 (ix2 p j)
      = Cert.Mlp.rowMlp (fun q => x0 (ix2 p q) + x1 (ix2 p q)) x2 (fun k => x3 (ix2 (0 : Fin 1) k)) x4 (fun k => x5 (ix2 (0 : Fin 1) k)) j := by
  rw [pay_eq, addf_apply, mm2_apply, brow_apply]
  unfold Cert.Mlp.rowMlp
  congr 1
  refine Finset.sum_congr rfl fun k _ => ?_
  rw [truncf_apply, truncf_apply, maximumf_apply, addf_apply, mm1_apply, brow_apply, broadcast_apply]
  simp only [truncf_apply, addf_apply, shapeCast_self]
  rfl

/-- The same at any index of the block, by its two coordinates. -/
theorem pay_at (x0 x1 : Vec Ideal S5000x65 .f32) (x2 : Vec Ideal S65x64 .f32) (x3 : Vec Ideal S1x64 .f32)
    (x4 : Vec Ideal S64x64 .f32) (x5 : Vec Ideal S1x64 .f32) (y : S5000x64.Idx) :
    k0_pay1 (F := Ideal) x0 x1 x2 x3 x4 x5 y
      = Cert.Mlp.rowMlp (fun q => x0 (ix2 (y 0) q) + x1 (ix2 (y 0) q)) x2 (fun k => x3 (ix2 (0 : Fin 1) k)) x4 (fun k => x5 (ix2 (0 : Fin 1) k)) (y 1) := by
  exact (congrArg (k0_pay1 (F := Ideal) x0 x1 x2 x3 x4 x5) (eq_ix2 y)).trans (pay_apply x0 x1 x2 x3 x4 x5 (y 0) (y 1))

end Cert.KernelIdeal.Hand

end
-- ==== Proof.KernelBlocks.lean ====
/-
  The blocks the kernel's grid points stage, as rows of the arrays the region finds.

  The grid has 20 points; point `t` stages rows `5000 t … 5000 t + 4999` of the node features and of the aggregated
  features, and the two weight matrices and the two bias rows whole.
-/
import proofs.«162335_j79723182948735_1_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 20 grid points: the two feature windows and the result window are at
    block row `t`, block column 0; the four parameter windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The staged blocks, by their literal types -/

abbrev xBlk (c : Dev nD) (t : Fin cfg0.N) : Vec Ideal S5000x65 .f32 := iblk m c 0 t
abbrev aggBlk (c : Dev nD) (t : Fin cfg0.N) : Vec Ideal S5000x65 .f32 := iblk m c 1 t
abbrev w1Blk (c : Dev nD) (t : Fin cfg0.N) : Vec Ideal S65x64 .f32 := iblk m c 2 t
abbrev b1Blk (c : Dev nD) (t : Fin cfg0.N) : Vec Ideal S1x64 .f32 := iblk m c 3 t
abbrev w2Blk (c : Dev nD) (t : Fin cfg0.N) : Vec Ideal S64x64 .f32 := iblk m c 4 t
abbrev b2Blk (c : Dev nD) (t : Fin cfg0.N) : Vec Ideal S1x64 .f32 := iblk m c 5 t

/-- The arrays the region finds, by their literal types: the aggregated features and the two bias rows are written by
    host operations before the region; the other three are arguments. -/
abbrev aggArr (c : Dev nD) : S100000x65.Idx → EReal := V m c main_v13
abbrev b1Row (c : Dev nD) : S1x64.Idx → EReal := V m c main_v14
abbrev b2Row (c : Dev nD) : S1x64.Idx → EReal := V m c main_v15
abbrev xArr (c : Dev nD) : S100000x65.Idx → EReal := m ((c : Thread nD τ).loc main_arg0)
abbrev w1Arr (c : Dev nD) : S65x64.Idx → EReal := m ((c : Thread nD τ).loc main_arg2)
abbrev w2Arr (c : Dev nD) : S64x64.Idx → EReal := m ((c : Thread nD τ).loc main_arg4)

/-! ## Reading an array through a window's block

Stated for an arbitrary array `f`, so that nothing here looks inside the arrays the region finds. -/

/-- Through the feature window's block at point `t`, element `(p, q)` is the array's element `(5000 t + p, q)`. -/
theorem read_rows0 (t : Fin cfg0.N) (f : S100000x65.Idx → EReal) (p : Fin 5000) (q : Fin 65) (r : Fin 100000)
    (hr : r.val = 5000 * t.val + p.val) :
    ((cfg0.win 0).blk t).view.read (Elt Ideal) f (ix2 p q : S5000x65.Idx) = f (ix2 r q) := by
  obtain ⟨e0, e1, -⟩ := idx_facts t
  have he : ((cfg0.win 0).blk t).view.emb (ix2 p q : S5000x65.Idx) = (ix2 r q : S100000x65.Idx) := by
    funext a
    apply Fin.ext
    match a with
    | ⟨0, _⟩ => show win0_0.index t (0 : Fin 2) * 5000 + 1 * p.val = r.val; rw [e0, hr]; omega
    | ⟨1, _⟩ => show win0_0.index t (1 : Fin 2) * 65 + 1 * q.val = q.val; rw [e1]; omega
  rw [View.read_apply, he]
  rfl

/-- The same through the aggregated-feature window's block. -/
theorem read_rows1 (t : Fin cfg0.N) (f : S100000x65.Idx → EReal) (p : Fin 5000) (q : Fin 65) (r : Fin 100000)
    (hr : r.val = 5000 * t.val + p.val) :
    ((cfg0.win 1).blk t).view.read (Elt Ideal) f (ix2 p q : S5000x65.Idx) = f (ix2 r q) := by
  obtain ⟨-, -, e0, e1, -⟩ := idx_facts t
  have he : ((cfg0.win 1).blk t).view.emb (ix2 p q : S5000x65.Idx) = (ix2 r q : S100000x65.Idx) := by
    funext a
    apply Fin.ext
    match a with
    | ⟨0, _⟩ => show win0_1.index t (0 : Fin 2) * 5000 + 1 * p.val = r.val; rw [e0, hr]; omega
    | ⟨1, _⟩ => show win0_1.index t (1 : Fin 2) * 65 + 1 * q.val = q.val; rw [e1]; omega
  rw [View.read_apply, he]
  rfl

/-- The first weight window's block is the whole array at every point. -/
theorem read_whole2 (t : Fin cfg0.N) (f : S65x64.Idx → EReal) : ((cfg0.win 2).blk t).view.read (Elt Ideal) f = f := by
  obtain ⟨-, -, -, -, e0, e1, -⟩ := idx_facts t
  funext y
  have he : ((cfg0.win 2).blk t).view.emb y = y := by
    funext a
    apply Fin.ext
    match a with
    | ⟨0, _⟩ => show win0_2.index t (0 : Fin 2) * 65 + 1 * (y 0).val = (y 0).val; rw [e0]; omega
    | ⟨1, _⟩ => show win0_2.index t (1 : Fin 2) * 64 + 1 * (y 1).val = (y 1).val; rw [e1]; omega
  rw [View.read_apply, he]
  rfl

/-- The first bias window's block is the whole row at every point. -/
theorem read_whole3 (t : Fin cfg0.N) (f : S1x64.Idx → EReal) : ((cfg0.win 3).blk t).view.read (Elt Ideal) f = f := by
  obtain ⟨-, -, -, -, -, -, e0, e1, -⟩ := idx_facts t
  funext y
  have he : ((cfg0.win 3).blk t).view.emb y = y := by
    funext a
    apply Fin.ext
    match a with
    | ⟨0, _⟩ => show win0_3.index t (0 : Fin 2) * 1 + 1 * (y 0).val = (y 0).val; rw [e0]; omega
    | ⟨1, _⟩ => show win0_3.index t (1 : Fin 2) * 64 + 1 * (y 1).val = (y 1).val; rw [e1]; omega
  rw [View.read_apply, he]
  rfl

/-- The second weight window's block is the whole array at every point. -/
theorem read_whole4 (t : Fin cfg0.N) (f : S64x64.Idx → EReal) : ((cfg0.win 4).blk t).view.read (Elt Ideal) f = f := by
  obtain ⟨-, -, -, -, -, -, -, -, e0, e1, -⟩ := idx_facts t
  funext y
  have he : ((cfg0.win 4).blk t).view.emb y = y := by
    funext a
    apply Fin.ext
    match a with
    | ⟨0, _⟩ => show win0_4.index t (0 : Fin 2) * 64 + 1 * (y 0).val = (y 0).val; rw [e0]; omega
    | ⟨1, _⟩ => show win0_4.index t (1 : Fin 2) * 64 + 1 * (y 1).val = (y 1).val; rw [e1]; omega
  rw [View.read_apply, he]
  rfl

/-- The second bias window's block is the whole row at every point. -/
theorem read_whole5 (t : Fin cfg0.N) (f : S1x64.Idx → EReal) : ((cfg0.win 5).blk t).view.read (Elt Ideal) f = f := by
  obtain ⟨-, -, -, -, -, -, -, -, -, -, e0, e1, -⟩ := idx_facts t
  funext y
  have he : ((cfg0.win 5).blk t).view.emb y = y := by
    funext a
    apply Fin.ext
    match a with
    | ⟨0, _⟩ => show win0_5.index t (0 : Fin 2) * 1 + 1 * (y 0).val = (y 0).val; rw [e0]; omega
    | ⟨1, _⟩ => show win0_5.index t (1 : Fin 2) * 64 + 1 * (y 1).val = (y 1).val; rw [e1]; omega
  rw [View.read_apply, he]
  rfl

/-- Through the result window's block at point `t`, element `(p, j)` is the array's element `(5000 t + p, j)`. -/
theorem read_rows6 (t : Fin cfg0.N) (f : S100000x64.Idx → EReal) (p : Fin 5000) (j : Fin 64) (r : Fin 100000)
    (hr : r.val = 5000 * t.val + p.val) :
    ((cfg0.win 6).blk t).view.read (Elt Ideal) f (ix2 p j : S5000x64.Idx) = f (ix2 r j) := by
  obtain ⟨-, -, -, -, -, -, -, -, -, -, -, -, e0, e1⟩ := idx_facts t
  have he : ((cfg0.win 6).blk t).view.emb (ix2 p j : S5000x64.Idx) = (ix2 r j : S100000x64.Idx) := by
    funext a
    apply Fin.ext
    match a with
    | ⟨0, _⟩ => show win0_6.index t (0 : Fin 2) * 5000 + 1 * p.val = r.val; rw [e0, hr]; omega
    | ⟨1, _⟩ => show win0_6.index t (1 : Fin 2) * 64 + 1 * j.val = j.val; rw [e1]; omega
  rw [View.read_apply, he]
  rfl

/-! ## The staged blocks as rows of the arrays the region finds -/

/-- Row `p` of the feature block at point `t` is row `5000 t + p` of the node features. -/
theorem xBlk_apply (c : Dev nD) (t : Fin cfg0.N) (p : Fin 5000) (q : Fin 65) (r : Fin 100000) (hr : r.val = 5000 * t.val + p.val) :
    xBlk m c t (ix2 p q) = xArr m c (ix2 r q) :=
  (read_rows0 t (V m c main_arg0) p q r hr).trans (congrFun (V_main_arg0 m c) (ix2 r q))

/-- Row `p` of the aggregated block at point `t` is row `5000 t + p` of the aggregated features. -/
theorem aggBlk_apply (c : Dev nD) (t : Fin cfg0.N) (p : Fin 5000) (q : Fin 65) (r : Fin 100000) (hr : r.val = 5000 * t.val + p.val) :
    aggBlk m c t (ix2 p q) = aggArr m c (ix2 r q) :=
  read_rows1 t (V m c main_v13) p q r hr

/-- The first weight matrix is staged whole at every point. -/
theorem w1Blk_eq (c : Dev nD) (t : Fin cfg0.N) : w1Blk m c t = w1Arr m c :=
  (read_whole2 t (V m c main_arg2)).trans (V_main_arg2 m c)

/-- The first bias row is staged whole at every point. -/
theorem b1Blk_eq (c : Dev nD) (t : Fin cfg0.N) : b1Blk m c t = b1Row m c :=
  read_whole3 t (V m c main_v14)

/-- The second weight matrix is staged whole at every point. -/
theorem w2Blk_eq (c : Dev nD) (t : Fin cfg0.N) : w2Blk m c t = w2Arr m c :=
  (read_whole4 t (V m c main_arg4)).trans (V_main_arg4 m c)

/-- The second bias row is staged whole at every point. -/
theorem b2Blk_eq (c : Dev nD) (t : Fin cfg0.N) : b2Blk m c t = b2Row m c :=
  read_whole5 t (V m c main_v15)

end Cert.KernelIdeal.Hand

end
-- ==== Proof.KernelBias.lean ====
/-
  The bias rows the kernel's region finds are the `[64]` bias arguments reshaped to `[1, 64]` by the host before the
  region, and a reshape read at `(0, k)` is the argument at `k`.
-/
import proofs.«162335_j79723182948735_1_alg».proof.Proof.KernelBlocks
import Idealize.ShloMosaic.Lib.StableHlo.Run

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The bias rows are the bias arguments -/

/-- The first bias row the region finds is the `[64]` argument reshaped to `[1, 64]`. -/
theorem b1Row_eq (c : Dev nD) :
    b1Row m c = shapeCast S1x64 (m ((c : Thread nD τ).loc main_arg3) : S64.Idx → EReal) shapeCasts_S64_S1x64 := by
  show (V m c main_v14 : S1x64.Idx → EReal) = _
  dsimp only [Gen.V, Gen.hostOps0]
  after_results
  rfl

/-- The second bias row the region finds is the `[64]` argument reshaped to `[1, 64]`. -/
theorem b2Row_eq (c : Dev nD) :
    b2Row m c = shapeCast S1x64 (m ((c : Thread nD τ).loc main_arg5) : S64.Idx → EReal) shapeCasts_S64_S1x64 := by
  show (V m c main_v15 : S1x64.Idx → EReal) = _
  dsimp only [Gen.V, Gen.hostOps0]
  after_results
  rfl

/-- A `[64]` vector reshaped to `[1, 64]`, read at `(0, k)`, is the vector at `k`. -/
theorem row_apply (b : S64.Idx → EReal) (k : Fin 64) :
    shapeCast S1x64 b shapeCasts_S64_S1x64 (ix2 (0 : Fin 1) k) = b (ix1 k) :=
  shapeCast_apply b shapeCasts_S64_S1x64 (ix2 (0 : Fin 1) k) (ix1 k)
    (by rewrite [Shape.rowMajor_val_one, Shape.rowMajor_val_two]; show k.val = 0 * 64 + k.val; omega)

end Cert.KernelIdeal.Hand

end
-- ==== Proof.KernelArray.lean ====
/-
  From the kernel's blocks to its result array.

  What grid point `t` writes back is block `t` (rows `5000 t … 5000 t + 4999`) of the specification `Cert.Mlp.G` of the
  arrays the region finds; the 20 blocks cover the `[100000, 64]` result (row `r` lies in block `r / 5000`), so the
  result array ends holding `G`.
-/
import proofs.«162335_j79723182948735_1_alg».proof.Proof.Gen.KernelIdeal.Value
import proofs.«162335_j79723182948735_1_alg».proof.Proof.KernelPayload
import proofs.«162335_j79723182948735_1_alg».proof.Proof.KernelBlocks
import proofs.«162335_j79723182948735_1_alg».proof.Proof.KernelBias

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the result array ends holding -/

/-- The specification at the arrays the region finds. -/
abbrev result (c : Dev nD) : S100000x64.Idx → EReal :=
  Cert.Mlp.G (xArr m c) (aggArr m c) (w1Arr m c) (m ((c : Thread nD τ).loc main_arg3)) (w2Arr m c) (m ((c : Thread nD τ).loc main_arg5))

/-- What point `t` writes back is block `t` of the specification: its element `y` is the perceptron of row `y₀` of the
    two staged feature blocks, which is row `5000 t + y₀` of the node features and of the aggregated features. -/
theorem flushed6_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S5000x65) hz, View.ld_unit_zero (S := S65x64) hz, View.ld_unit_zero (S := S1x64) hz,
    View.ld_unit_zero (S := S64x64) hz]
  refine funext fun (y : S5000x64.Idx) => ?_
  obtain ⟨p, j, rfl⟩ : ∃ (p : Fin 5000) (j : Fin 64), y = ix2 p j := ⟨y 0, y 1, eq_ix2 y⟩
  have hN : cfg0.N = 20 := N_0
  have hlt : 5000 * t.val + p.val < 100000 := by
    have h1 := t.isLt
    have h2 := p.isLt
    omega
  refine Eq.trans (pay_apply (xBlk m c t) (aggBlk m c t) (w1Blk m c t) (b1Blk m c t) (w2Blk m c t) (b2Blk m c t) p j) ?_
  refine Eq.trans ?_ (read_rows6 t (result m c) p j ⟨5000 * t.val + p.val, hlt⟩ rfl).symm
  refine Eq.trans ?_ (Cert.Mlp.G_apply (xArr m c) (aggArr m c) (w1Arr m c) (m ((c : Thread nD τ).loc main_arg3)) (w2Arr m c)
    (m ((c : Thread nD τ).loc main_arg5)) ⟨5000 * t.val + p.val, hlt⟩ j).symm
  refine Cert.Mlp.rowMlp_congr (fun q => ?_) (w1Blk_eq m c t) (fun k => ?_) (w2Blk_eq m c t) (fun k => ?_) rfl
  · rw [xBlk_apply m c t p q ⟨5000 * t.val + p.val, hlt⟩ rfl, aggBlk_apply m c t p q ⟨5000 * t.val + p.val, hlt⟩ rfl]
  · rw [b1Blk_eq, b1Row_eq, row_apply]
  · rw [b2Blk_eq, b2Row_eq, row_apply]

/-- An index of the result array is in point `t`'s block iff each coordinate is in the block's range on its axis. -/
theorem mem_blk6 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v16).slice (win0_6.rect t)).set ↔ _
  rw [View.set_slice_whole, Rect.mem_set_unit]
  exact Iff.rfl

/-- Every index of the result array is in some point's block: row `r` is in block `r / 5000`. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_6 _, ?_⟩
  rw [mem_blk6]
  obtain ⟨-, -, -, -, -, -, -, -, -, -, -, -, e0, e1⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 64 ≤ (i 1).val ∧ (i 1).val < win0_6.index _ (1 : Fin 2) * 64 + 64
    rw [e1]; omega

/-- The result array after the run is the specification of the arrays the region finds. -/
theorem final6 (c : Dev nD) : (dats m 0 c).arrAt 6 cfg0.N = result m c :=
  (dats m 0 c).arrAt_eq_of_cover 6 (result m c) (fun t _ => flushed6_eq m c t) cover6

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2⟩)
    (Cert.KernelIdeal.Value.run_blocks m ρ)

end Cert.KernelIdeal.Hand

end
-- ==== Proof.lean ====
/-
  The kernel against its reference: a graph layer that adds to each node's features the sum of its in-neighbours'
  features and sends the result through a two-layer perceptron, `relu ((x + agg) · W1 + b1) · W2 + b2`.

  Both programs compute the neighbour sum `agg` with the same host operations (a gather of the source rows and a
  scatter-add into the destination rows): the kernel's region finds in its second window exactly the array the
  reference's aggregation stage names, so that stage is carried whole and never opened.  The kernel then runs the
  perceptron on 20 blocks of 5000 rows, the reference on the whole array; since row `r` of the result depends on row
  `r` of `x + agg` only, and at the extended reals the narrowing to sixteen bits is the identity and each matrix
  product is the plain sum over the contraction coordinate, every element of both results is
  `Cert.Mlp.rowMlp` of row `r` (Proof/MlpSpec.lean).  No law of arithmetic beyond that is used, so the precondition is
  never opened.

  Proof/RefMlp.lean: the reference's last stage is the specification.  Proof/KernelPayload.lean: the body's stored
  value at an element.  Proof/KernelArray.lean: what each grid point writes back is its block of the specification, the
  blocks cover the result, and the bias rows are the bias arguments.  Here: the two aggregations are one term, and the
  claims.
-/
import proofs.«162335_j79723182948735_1_alg».proof.Defs
import proofs.«162335_j79723182948735_1_alg».proof.Proof.Gen.Kernel
import proofs.«162335_j79723182948735_1_alg».proof.Proof.Gen.Kernel.Frame
import proofs.«162335_j79723182948735_1_alg».proof.Proof.Gen.KernelIdeal
import proofs.«162335_j79723182948735_1_alg».proof.Proof.Gen.KernelIdeal.Frame
import proofs.«162335_j79723182948735_1_alg».proof.Proof.Gen.KernelIdeal.Value
import proofs.«162335_j79723182948735_1_alg».proof.Proof.Gen.ReferenceIdeal
import proofs.«162335_j79723182948735_1_alg».proof.Proof.Gen.ReferenceIdeal.Run
import proofs.«162335_j79723182948735_1_alg».proof.Proof.Gen.ReferenceIdeal.Read
import proofs.«162335_j79723182948735_1_alg».proof.Proof.Gen.Pre_finite_inputs
import proofs.«162335_j79723182948735_1_alg».proof.Proof.MlpSpec
import proofs.«162335_j79723182948735_1_alg».proof.Proof.RefMlp
import proofs.«162335_j79723182948735_1_alg».proof.Proof.KernelPayload
import proofs.«162335_j79723182948735_1_alg».proof.Proof.KernelArray
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-- The aggregated features the kernel's region finds are the reference's aggregation stage of the kernel's own
    arguments: the same slices, index normalisation, gather and scatter-add, operation by operation. -/
theorem agg_eq (m : (ℓ : Loc Cert.KernelIdeal.nD Cert.KernelIdeal.τ Cert.KernelIdeal.sig) → Buf (Elt Ideal) ℓ) (c : Dev Cert.KernelIdeal.nD) :
    Cert.KernelIdeal.Hand.aggArr m c
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show (Cert.KernelIdeal.Gen.V m c Cert.KernelIdeal.main_v13 : Cert.KernelIdeal.S100000x65.Idx → EReal) = _
  dsimp only [Cert.KernelIdeal.Gen.V, Cert.KernelIdeal.Gen.hostOps0]
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the extended reals. -/
theorem preserves : Cert.preserves_Kernel_KernelIdeal := trivial

/-- From memories agreeing on the arguments the kernel's result array ends at the specification of its arguments and of
    the aggregated features its region finds, the reference's at the specification of its arguments and of its own
    aggregation stage; the two aggregations are one term of the shared arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq,
    (hagree c).1, (hagree c).2.1, (hagree c).2.2.1, (hagree c).2.2.2.1, (hagree c).2.2.2.2.1, (hagree c).2.2.2.2.2,
    ← agg_eq m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
